-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x800000 : Shape := ⟨2, ![2, 800000]⟩
abbrev S11x64 : Shape := ⟨2, ![11, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x64 : S_.BroadcastsInDim S11x64 (![] : Fin 0 → Fin S11x64.rank)
  reducesTo_S11x64_S_d0_1 : S11x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S128 .f32) (main_arg6 : FVec F S128x256 .f32) (main_arg7 : FVec F S256 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x11 .f32) (main_arg1 : IVec S2x800000 32) (main_arg2 : FVec F S11x64 .f32) (main_arg3 : FVec F S64 .f32) (main_arg4 : FVec F S64x128 .f32) (main_arg5 : FVec F S128 .f32) (main_arg6 : FVec F S128x256 .f32) (main_arg7 : FVec F S256 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x64 .f32 := Host.absf main_arg2
  let main_cst_0 : FVec F S_ .f32 := constant S_ .f32 0x7F800000#32
  let main_v5 : FVec F S11x64 .f32 := broadcastInDim S11x64 ![] bcast_S_S11x64 main_cst_0
  let main_v6 : IVec S11x64 1 := cmpf .olt main_v4 main_v5
  let main_c_1 : IVec S_ 1 := constantI S_ 1 1#1
  let main_v7 : IVec S_ 1 := (fun x v => Host.reduce IntOp.andi x v reducesTo_S11x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x11 : Shape := ⟨2, ![100000, 11]⟩
abbrev S2x800000 : Shape := ⟨2, ![2, 800000]⟩
abbrev S11x64 : Shape := ⟨2, ![11, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x11 : Shape := ⟨2, ![800000, 11]⟩
abbrev S1x64 : Shape := ⟨2, ![1, 64]⟩
abbrev S1x128 : Shape := ⟨2, ![1, 128]⟩
abbrev S1x256 : Shape := ⟨2, ![1, 256]⟩
abbrev S800000x256 : Shape := ⟨2, ![800000, 256]⟩
abbrev S8000x11 : Shape := ⟨2, ![8000, 11]⟩
abbrev S8000x256 : Shape := ⟨2, ![8000, 256]⟩
abbrev S8000x6 : Shape := ⟨2, ![8000, 6]⟩
abbrev S8000x5 : Shape := ⟨2, ![8000, 5]⟩
abbrev S8000x64 : Shape := ⟨2, ![8000, 64]⟩
abbrev S8000x128 : Shape := ⟨2, ![8000, 128]⟩

abbrev nBuf : Space → Nat
  | .hbm => 37
  | .vmem => 12
  | .smem => 0
  | _ => 0

abbrev bufTy : (tb : Table) → Fin (tcTables nBuf tb) → BufTy
  | .hbm, ⟨0, _⟩ => ⟨S100000x11, .f32⟩
  | .hbm, ⟨1, _⟩ => ⟨S2x800000, .i32⟩
  | .hbm, ⟨2, _⟩ => ⟨S11x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x11, .f32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x11, .f32⟩
  | .hbm, ⟨30, _⟩ => ⟨S11x64, .bf16⟩
  | .hbm, ⟨31, _⟩ => ⟨S64x128, .bf16⟩
  | .hbm, ⟨32, _⟩ => ⟨S128x256, .bf16⟩
  | .hbm, ⟨33, _⟩ => ⟨S1x64, .f32⟩
  | .hbm, ⟨34, _⟩ => ⟨S1x128, .f32⟩
  | .hbm, ⟨35, _⟩ => ⟨S1x256, .f32⟩
  | .hbm, ⟨36, _⟩ => ⟨S800000x256, .f32⟩
  | .local _ .vmem, ⟨0, _⟩ => ⟨S8000x11, .f32⟩
  | .local _ .vmem, ⟨1, _⟩ => ⟨S8000x11, .f32⟩
  | .local _ .vmem, ⟨2, _⟩ => ⟨S8000x11, .f32⟩
  | .local _ .vmem, ⟨3, _⟩ => ⟨S8000x11, .f32⟩
  | .local _ .vmem, ⟨4, _⟩ => ⟨S11x64, .bf16⟩
  | .local _ .vmem, ⟨5, _⟩ => ⟨S1x64, .f32⟩
  | .local _ .vmem, ⟨6, _⟩ => ⟨S64x128, .bf16⟩
  | .local _ .vmem, ⟨7, _⟩ => ⟨S1x128, .f32⟩
  | .local _ .vmem, ⟨8, _⟩ => ⟨S128x256, .bf16⟩
  | .local _ .vmem, ⟨9, _⟩ => ⟨S1x256, .f32⟩
  | .local _ .vmem, ⟨10, _⟩ => ⟨S8000x256, .f32⟩
  | .local _ .vmem, ⟨11, _⟩ => ⟨S8000x256, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bitsLt_bf16_f32 : FTy.bits .bf16 < FTy.bits .f32
  shapeCasts_S64_S1x64 : S64.ShapeCasts S1x64
  shapeCasts_S128_S1x128 : S128.ShapeCasts S1x128
  shapeCasts_S256_S1x256 : S256.ShapeCasts S1x256
  inb_S8000x11_S8000x11_0_0 : ∀ a, (![0, 0] : Fin 2 → Nat) a + S8000x11.size a ≤ S8000x11.size a
  h_S8000x11 : 0 < S8000x11.numel
  shapeCasts_S8000x11_S8000x11 : S8000x11.ShapeCasts S8000x11
  slices_S8000x11_o0_0_S8000x6 : S8000x11.Slices ![0, 0] S8000x6
  slices_S8000x11_o0_6_S8000x5 : S8000x11.Slices ![0, 6] S8000x5
  concatenates_S8000x6_S8000x5_S8000x11_d1 : Shape.Concatenates [S8000x6, S8000x5] S8000x11 1
  inb_S11x64_S11x64_0_0 : ∀ a, (![0, 0] : Fin 2 → Nat) a + S11x64.size a ≤ S11x64.size a
  h_S11x64 : 0 < S11x64.numel
  shapeCasts_S11x64_S11x64 : S11x64.ShapeCasts S11x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  gather_S100000x11_S800000x1_S800000x11_1_0_n_n_0_1_111_wf : GatherDims.WF S100000x11 S800000x1 S800000x11 [1] [0] [] [0] [] 1 ![1, 11]
  dot_S8000x11_S11x64_S8000x64_1_0_0_1_n_n_wf : DotDims.WF S8000x11 S11x64 S8000x64 [1] [0] [0] [1] [] []
  dot_S8000x64_S64x128_S8000x128_1_0_0_1_n_n_wf : DotDims.WF S8000x64 S64x128 S8000x128 [1] [0] [0] [1] [] []
  dot_S8000x128_S128x256_S8000x256_1_0_0_1_n_n_wf : DotDims.WF S8000x128 S128x256 S8000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x11.size a ≤ S800000x11.size a
  hwx0_0 : ∀ i : grid0.Coords, EltTy.bits .f32 = 32 ∨ (Rect.block (s := S800000x11) S8000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x11.size a ≤ S800000x11.size a
  hwx0_1 : ∀ i : grid0.Coords, EltTy.bits .f32 = 32 ∨ (Rect.block (s := S800000x11) S8000x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x64.size a ≤ S11x64.size a
  hwx0_2 : ∀ i : grid0.Coords, EltTy.bits .bf16 = 32 ∨ (Rect.block (s := S11x64) S11x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .bf16 = 32 ∨ (Rect.block (s := S128x256) S128x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x256.size a ≤ S800000x256.size a
  hwx0_8 : ∀ i : grid0.Coords, EltTy.bits .f32 = 32 ∨ (Rect.block (s := S800000x256) S8000x256.size (cc0_transform_8 i) (hinb0_8 i)).WholeWords (EltTy.packing .f32)

variable [Facts₀]

def gather_S100000x11_S800000x1_S800000x11_1_0_n_n_0_1_111 : GatherDims S100000x11 S800000x1 S800000x11 where
  offsetDims := [1]
  collapsedSliceDims := [0]
  operandBatchingDims := []
  startIndicesBatchingDims := []
  startIndexMap := [0]
  indexVectorDim := 1
  sliceSizes := ![1, 11]
  wf := gather_S100000x11_S800000x1_S800000x11_1_0_n_n_0_1_111_wf
def dot_S8000x11_S11x64_S8000x64_1_0_0_1_n_n : DotDims S8000x11 S11x64 S8000x64 where
  lhsContracting := [1]
  rhsContracting := [0]
  lhsNonContracting := [0]
  rhsNonContracting := [1]
  lhsBatch := []
  rhsBatch := []
  wf := dot_S8000x11_S11x64_S8000x64_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x256_S8000x256_1_0_0_1_n_n : DotDims S8000x128 S128x256 S8000x256 where
  lhsContracting := [1]
  rhsContracting := [0]
  lhsNonContracting := [0]
  rhsNonContracting := [1]
  lhsBatch := []
  rhsBatch := []
  wf := dot_S8000x128_S128x256_S8000x256_1_0_0_1_n_n_wf

abbrev win0_0 : Pipeline.Window sig grid0 :=
  Pipeline.Window.ofSpec (Memref.whole main_v17) S8000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S11x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S8000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x11 : Shape := ⟨2, ![100000, 11]⟩
abbrev S2x800000 : Shape := ⟨2, ![2, 800000]⟩
abbrev S11x64 : Shape := ⟨2, ![11, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x11 : Shape := ⟨2, ![800000, 11]⟩
abbrev S800000x6 : Shape := ⟨2, ![800000, 6]⟩
abbrev S800000x5 : Shape := ⟨2, ![800000, 5]⟩
abbrev S800000x64 : Shape := ⟨2, ![800000, 64]⟩
abbrev S1x64 : Shape := ⟨2, ![1, 64]⟩
abbrev S800000x128 : Shape := ⟨2, ![800000, 128]⟩
abbrev S1x128 : Shape := ⟨2, ![1, 128]⟩
abbrev S800000x256 : Shape := ⟨2, ![800000, 256]⟩
abbrev S1x256 : Shape := ⟨2, ![1, 256]⟩

abbrev nBuf : Space → Nat
  | .hbm => 56
  | .vmem => 0
  | .smem => 0
  | _ => 0

abbrev bufTy : (tb : Table) → Fin (tcTables nBuf tb) → BufTy
  | .hbm, ⟨0, _⟩ => ⟨S100000x11, .f32⟩
  | .hbm, ⟨1, _⟩ => ⟨S2x800000, .i32⟩
  | .hbm, ⟨2, _⟩ => ⟨S11x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x11, .f32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x11, .f32⟩
  | .hbm, ⟨30, _⟩ => ⟨S800000x6, .f32⟩
  | .hbm, ⟨31, _⟩ => ⟨S800000x6, .f32⟩
  | .hbm, ⟨32, _⟩ => ⟨S800000x6, .f32⟩
  | .hbm, ⟨33, _⟩ => ⟨S800000x5, .f32⟩
  | .hbm, ⟨34, _⟩ => ⟨S800000x5, .f32⟩
  | .hbm, ⟨35, _⟩ => ⟨S800000x5, .f32⟩
  | .hbm, ⟨36, _⟩ => ⟨S800000x5, .f32⟩
  | .hbm, ⟨37, _⟩ => ⟨S800000x11, .f32⟩
  | .hbm, ⟨38, _⟩ => ⟨S800000x64, .f32⟩
  | .hbm, ⟨39, _⟩ => ⟨S1x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S800000x64, .f32⟩
  | .hbm, ⟨44, _⟩ => ⟨S800000x64, .f32⟩
  | .hbm, ⟨45, _⟩ => ⟨S800000x128, .f32⟩
  | .hbm, ⟨46, _⟩ => ⟨S1x128, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S800000x128, .f32⟩
  | .hbm, ⟨51, _⟩ => ⟨S800000x128, .f32⟩
  | .hbm, ⟨52, _⟩ => ⟨S800000x256, .f32⟩
  | .hbm, ⟨53, _⟩ => ⟨S1x256, .f32⟩
  | .hbm, ⟨54, _⟩ => ⟨S800000x256, .f32⟩
  | .hbm, ⟨55, _⟩ => ⟨S800000x256, .f32⟩
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_cst : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  slices_S800000x11_S800000x6_0_0 : S800000x11.Slices ![0, 0] S800000x6
  slices_S800000x11_S800000x5_0_6 : S800000x11.Slices ![0, 6] S800000x5
  concatenates_S800000x6_S800000x5_S800000x11_d1 : Shape.Concatenates [S800000x6, S800000x5] S800000x11 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  gather_S100000x11_S800000x1_S800000x11_1_0_n_n_0_1_111_wf : GatherDims.WF S100000x11 S800000x1 S800000x11 [1] [0] [] [0] [] 1 ![1, 11]
  dot_S800000x11_S11x64_S800000x64_1_0_0_1_n_n_wf : DotDims.WF S800000x11 S11x64 S800000x64 [1] [0] [0] [1] [] []
  dot_S800000x64_S64x128_S800000x128_1_0_0_1_n_n_wf : DotDims.WF S800000x64 S64x128 S800000x128 [1] [0] [0] [1] [] []
  dot_S800000x128_S128x256_S800000x256_1_0_0_1_n_n_wf : DotDims.WF S800000x128 S128x256 S800000x256 [1] [0] [0] [1] [] []

variable [Facts₀]

def gather_S100000x11_S800000x1_S800000x11_1_0_n_n_0_1_111 : GatherDims S100000x11 S800000x1 S800000x11 where
  offsetDims := [1]
  collapsedSliceDims := [0]
  operandBatchingDims := []
  startIndicesBatchingDims := []
  startIndexMap := [0]
  indexVectorDim := 1
  sliceSizes := ![1, 11]
  wf := gather_S100000x11_S800000x1_S800000x11_1_0_n_n_0_1_111_wf
def dot_S800000x11_S11x64_S800000x64_1_0_0_1_n_n : DotDims S800000x11 S11x64 S800000x64 where
  lhsContracting := [1]
  rhsContracting := [0]
  lhsNonContracting := [0]
  rhsNonContracting := [1]
  lhsBatch := []
  rhsBatch := []
  wf := dot_S800000x11_S11x64_S800000x64_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.EdgeMlp.lean ====
/-
  One edge's message and its encoder, on the extended reals.

  An edge with endpoint descriptors `xi, xj : Fin 11 → EReal` carries the feature whose first six channels are the
  differences `xi d - xj d` and whose last five are the logarithms of the quotients `log (xi d / xj d)`. The encoder is
  three dense layers 11 → 64 → 128 → 256, the first two followed by the rectifier `max · 0`:
  `dense W b x n = (∑ k, x k * W k n) + b n`.

  This module states that function once, and reads the vector operations that compute it — a two-piece
  concatenation of a difference and a logarithm of a quotient of column slices, a matrix product into the zero
  word plus a bias row, a maximum against the zero word — at an element `(p, n)` of a block of `R` rows, for any
  `R`: both a pipelined block of edges and the whole edge list are such blocks.
-/
import Idealize.ShloMosaic.PureOps.Ideal.Laws
import Idealize.ShloMosaic.Lib.ValueIdx
import Idealize.ShloMosaic.Lib.Pipeline.Value
import proofs.«114039_j10840497455585_1_alg».proof.Proof.LibRowwise

noncomputable section

namespace Cert.EdgeMlp

open Idealize.ShloMosaic Idealize.ShloMosaic.ValueIdx

/-! ## The function -/

/-- The value of the all-zero f32 word, which the rectifier compares with. -/
abbrev zeroWord : EReal := Ideal.ofBits .f32 0x00000000#32

/-- An edge's feature: six differences, then five logarithms of quotients. -/
def feat (xi xj : Fin 11 → EReal) (d : Fin 11) : EReal :=
  if d.val < 6 then xi d - xj d else Ideal.log (Ideal.div (xi d) (xj d))

/-- A dense layer: the input row times the weight matrix, plus the bias. -/
def dense {K N : Nat} (W : Fin K → Fin N → EReal) (b : Fin N → EReal) (x : Fin K → EReal) (n : Fin N) : EReal :=
  (∑ k : Fin K, x k * W k n) + b n

/-- A dense layer depends on its weights, bias and input only through their values. -/
theorem dense_congr {K N : Nat} {W W' : Fin K → Fin N → EReal} {b b' : Fin N → EReal} {x x' : Fin K → EReal}
    (hW : ∀ k n, W k n = W' k n) (hb : ∀ n, b n = b' n) (hx : ∀ k, x k = x' k) (n : Fin N) :
    dense W b x n = dense W' b' x' n := by
  unfold dense
  rw [hb n]
  exact congrArg (· + b' n) (Finset.sum_congr rfl fun k _ => by rw [hW k n, hx k])

/-- The rectifier. -/
def relu (x : EReal) : EReal := max x zeroWord

/-- The encoder of one edge. -/
def mlp (W1 : Fin 11 → Fin 64 → EReal) (b1 : Fin 64 → EReal) (W2 : Fin 64 → Fin 128 → EReal) (b2 : Fin 128 → EReal)
    (W3 : Fin 128 → Fin 256 → EReal) (b3 : Fin 256 → EReal) (xi xj : Fin 11 → EReal) : Fin 256 → EReal :=
  dense W3 b3 fun k => relu (dense W2 b2 (fun j => relu (dense W1 b1 (feat xi xj) j)) k)

/-- The feature depends on the two rows only through their values. -/
theorem feat_congr {xi xi' xj xj' : Fin 11 → EReal} (hi : ∀ d, xi d = xi' d) (hj : ∀ d, xj d = xj' d) (d : Fin 11) :
    feat xi xj d = feat xi' xj' d := by
  unfold feat
  rw [hi d, hj d]

/-- The encoder depends on its weights, biases and rows only through their values. -/
theorem mlp_congr {W1 W1' : Fin 11 → Fin 64 → EReal} {b1 b1' : Fin 64 → EReal} {W2 W2' : Fin 64 → Fin 128 → EReal}
    {b2 b2' : Fin 128 → EReal} {W3 W3' : Fin 128 → Fin 256 → EReal} {b3 b3' : Fin 256 → EReal} {xi xi' xj xj' : Fin 11 → EReal}
    (h1 : ∀ k n, W1 k n = W1' k n) (g1 : ∀ n, b1 n = b1' n) (h2 : ∀ k n, W2 k n = W2' k n) (g2 : ∀ n, b2 n = b2' n)
    (h3 : ∀ k n, W3 k n = W3' k n) (g3 : ∀ n, b3 n = b3' n) (hi : ∀ d, xi d = xi' d) (hj : ∀ d, xj d = xj' d) (o : Fin 256) :
    mlp W1 b1 W2 b2 W3 b3 xi xj o = mlp W1' b1' W2' b2' W3' b3' xi' xj' o :=
  dense_congr h3 g3 (fun k => congrArg relu (dense_congr h2 g2
    (fun j => congrArg relu (dense_congr h1 g1 (feat_congr hi hj) j)) k)) o

/-- A vector laid out as a one-row matrix reads, at `(0, n)`, the vector at `n`. -/
theorem rowCast_apply {N : Nat} {α : Type} (v : (⟨1, ![N]⟩ : Shape).Idx → α) (h : (⟨1, ![N]⟩ : Shape).ShapeCasts ⟨2, ![1, N]⟩)
    (n : Fin N) : shapeCast ⟨2, ![1, N]⟩ v h (ix2 0 n) = v (ix1 n) := by
  refine shapeCast_apply v h (ix2 0 n) (ix1 n) ?_
  rw [Shape.rowMajor_val_one, Shape.rowMajor_val_two]
  show n.val = 0 * N + n.val
  omega

/-- The encoder over a list of `E` edges: row `e` of the result is the encoder of row `e` of the two gathered
    descriptor arrays. The weights are matrices, the biases vectors. -/
def encode {E : Nat} (xi xj : (⟨2, ![E, 11]⟩ : Shape).Idx → EReal)
    (W1 : (⟨2, ![11, 64]⟩ : Shape).Idx → EReal) (b1 : (⟨1, ![64]⟩ : Shape).Idx → EReal)
    (W2 : (⟨2, ![64, 128]⟩ : Shape).Idx → EReal) (b2 : (⟨1, ![128]⟩ : Shape).Idx → EReal)
    (W3 : (⟨2, ![128, 256]⟩ : Shape).Idx → EReal) (b3 : (⟨1, ![256]⟩ : Shape).Idx → EReal) :
    (⟨2, ![E, 256]⟩ : Shape).Idx → EReal := fun i =>
  mlp (fun k n => W1 (ix2 k n)) (fun n => b1 (ix1 n)) (fun k n => W2 (ix2 k n)) (fun n => b2 (ix1 n))
    (fun k n => W3 (ix2 k n)) (fun n => b3 (ix1 n))
    (fun d => xi (ix2 (⟨(i 0).val, idx2_lt0 i⟩ : Fin E) d)) (fun d => xj (ix2 (⟨(i 0).val, idx2_lt0 i⟩ : Fin E) d))
    (⟨(i 1).val, idx2_lt1 i⟩ : Fin 256)

theorem encode_apply {E : Nat} (xi xj : (⟨2, ![E, 11]⟩ : Shape).Idx → EReal)
    (W1 : (⟨2, ![11, 64]⟩ : Shape).Idx → EReal) (b1 : (⟨1, ![64]⟩ : Shape).Idx → EReal)
    (W2 : (⟨2, ![64, 128]⟩ : Shape).Idx → EReal) (b2 : (⟨1, ![128]⟩ : Shape).Idx → EReal)
    (W3 : (⟨2, ![128, 256]⟩ : Shape).Idx → EReal) (b3 : (⟨1, ![256]⟩ : Shape).Idx → EReal) (e : Fin E) (o : Fin 256) :
    encode xi xj W1 b1 W2 b2 W3 b3 (ix2 e o)
      = mlp (fun k n => W1 (ix2 k n)) (fun n => b1 (ix1 n)) (fun k n => W2 (ix2 k n)) (fun n => b2 (ix1 n))
          (fun k n => W3 (ix2 k n)) (fun n => b3 (ix1 n)) (fun d => xi (ix2 e d)) (fun d => xj (ix2 e d)) o := rfl

/-! ## The feature, read off a block of rows -/

section Feature

variable {R : Nat}

/-- A `[R, 6]` and a `[R, 5]` piece joined along the columns, at `(p, d)`: the first piece at `(p, d)` for `d < 6`,
    the second at `(p, d - 6)` otherwise. -/
theorem join_apply (a : (⟨2, ![R, 6]⟩ : Shape).Idx → EReal) (b : (⟨2, ![R, 5]⟩ : Shape).Idx → EReal)
    (h : Shape.Concatenates [(⟨2, ![R, 6]⟩ : Shape), ⟨2, ![R, 5]⟩] ⟨2, ![R, 11]⟩ 1) (p : Fin R) (d : Fin 11) :
    concatenate ⟨2, ![R, 11]⟩ 1 [⟨⟨2, ![R, 6]⟩, a⟩, ⟨⟨2, ![R, 5]⟩, b⟩] h (ix2 p d)
      = if hd : d.val < 6 then a (ix2 p ⟨d.val, hd⟩) else b (ix2 p ⟨d.val - 6, by have := d.isLt; omega⟩) := by
  split
  · next hd =>
    refine concatenate_pair_apply_left 1 a b h (ix2 p d) rfl (ix2 p ⟨d.val, hd⟩) fun c => ?_
    match c with
    | ⟨0, _⟩ => rfl
    | ⟨1, _⟩ => rfl
  · next hd =>
    refine concatenate_pair_apply_right 1 a b h (ix2 p d) rfl rfl (ix2 p ⟨d.val - 6, by have := d.isLt; omega⟩) (fun c hc => ?_) ?_
    · match c with
      | ⟨0, _⟩ => rfl
      | ⟨1, _⟩ => exact absurd rfl hc
    · show d.val - 6 + 6 = d.val
      omega

/-- The leading six columns of an `[R, 11]` block, at `(p, d)`. -/
theorem head_apply (x : (⟨2, ![R, 11]⟩ : Shape).Idx → EReal) (h : (⟨2, ![R, 11]⟩ : Shape).Slices ![0, 0] ⟨2, ![R, 6]⟩)
    (p : Fin R) (d : Fin 6) :
    extractStridedSlice ⟨2, ![R, 6]⟩ ![0, 0] x h (ix2 p d) = x (ix2 p ⟨d.val, by have := d.isLt; omega⟩) :=
  extractStridedSlice_apply ![0, 0] x h (ix2 p d) (ix2 p ⟨d.val, by have := d.isLt; omega⟩) fun c => by
    match c with
    | ⟨0, _⟩ => show p.val = 0 + p.val; omega
    | ⟨1, _⟩ => show d.val = 0 + d.val; omega

/-- The trailing five columns of an `[R, 11]` block, at `(p, d)`. -/
theorem tail_apply (x : (⟨2, ![R, 11]⟩ : Shape).Idx → EReal) (h : (⟨2, ![R, 11]⟩ : Shape).Slices ![0, 6] ⟨2, ![R, 5]⟩)
    (p : Fin R) (d : Fin 5) :
    extractStridedSlice ⟨2, ![R, 5]⟩ ![0, 6] x h (ix2 p d) = x (ix2 p ⟨6 + d.val, by have := d.isLt; omega⟩) :=
  extractStridedSlice_apply ![0, 6] x h (ix2 p d) (ix2 p ⟨6 + d.val, by have := d.isLt; omega⟩) fun c => by
    match c with
    | ⟨0, _⟩ => show p.val = 0 + p.val; omega
    | ⟨1, _⟩ => show 6 + d.val = 6 + d.val; rfl

/-- The joined difference and logarithm of the quotient of the column slices of two `[R, 11]` blocks is, at
    `(p, d)`, the feature of their rows `p`. The logarithm and the quotient are given as any vector operations
    that are `Ideal.log` and `Ideal.div` element by element (the kernel's and the host's both are). -/
theorem feature_apply (xi xj : (⟨2, ![R, 11]⟩ : Shape).Idx → EReal)
    (h6 : (⟨2, ![R, 11]⟩ : Shape).Slices ![0, 0] ⟨2, ![R, 6]⟩) (h5 : (⟨2, ![R, 11]⟩ : Shape).Slices ![0, 6] ⟨2, ![R, 5]⟩)
    (hc : Shape.Concatenates [(⟨2, ![R, 6]⟩ : Shape), ⟨2, ![R, 5]⟩] ⟨2, ![R, 11]⟩ 1)
    (lg : ((⟨2, ![R, 5]⟩ : Shape).Idx → EReal) → ((⟨2, ![R, 5]⟩ : Shape).Idx → EReal))
    (dv : ((⟨2, ![R, 5]⟩ : Shape).Idx → EReal) → ((⟨2, ![R, 5]⟩ : Shape).Idx → EReal) → ((⟨2, ![R, 5]⟩ : Shape).Idx → EReal))
    (hlg : ∀ v i, lg v i = Ideal.log (v i)) (hdv : ∀ u v i, dv u v i = Ideal.div (u i) (v i)) (p : Fin R) (d : Fin 11) :
    concatenate ⟨2, ![R, 11]⟩ 1
        [⟨⟨2, ![R, 6]⟩, subf (F := Ideal) (φ := .f32) (extractStridedSlice ⟨2, ![R, 6]⟩ ![0, 0] xi h6) (extractStridedSlice ⟨2, ![R, 6]⟩ ![0, 0] xj h6)⟩,
         ⟨⟨2, ![R, 5]⟩, lg (dv (extractStridedSlice ⟨2, ![R, 5]⟩ ![0, 6] xi h5) (extractStridedSlice ⟨2, ![R, 5]⟩ ![0, 6] xj h5))⟩] hc (ix2 p d)
      = feat (fun d => xi (ix2 p d)) (fun d => xj (ix2 p d)) d := by
  rw [join_apply]
  unfold feat
  split
  · next hd =>
    rw [subf_apply, head_apply, head_apply]
  · next hd =>
    rw [hlg, hdv, tail_apply, tail_apply]
    have e : (⟨6 + (d.val - 6), by have := d.isLt; omega⟩ : Fin 11) = d := Fin.ext (by show 6 + (d.val - 6) = d.val; omega)
    simp only [e]

end Feature

/-! ## A dense layer, read off a block of rows -/

section Layer

variable {R K N : Nat} {φ₁ φ₂ : FTy}

/-- A bias row `[1, N]` broadcast down the `R` rows reads, at `(p, n)`, the row at `(0, n)`. -/
theorem biasRow_apply (b : (⟨2, ![1, N]⟩ : Shape).Idx → EReal) (h : (⟨2, ![1, N]⟩ : Shape).Broadcasts ⟨2, ![R, N]⟩)
    (hN : N ≠ 1) (p : Fin R) (n : Fin N) : broadcastTo ⟨2, ![R, N]⟩ b h (ix2 p n) = b (ix2 0 n) := by
  refine broadcastTo_apply b h (ix2 p n) (ix2 0 n) fun a => ?_
  match a with
  | ⟨0, _⟩ => exact (if_pos rfl).symm
  | ⟨1, _⟩ => exact (if_neg hN).symm

/-- The kernel's layer: the product of a block of rows with the weights into the zero word, plus the bias row,
    at `(p, n)`. -/
theorem layer_apply (D : DotDims ⟨2, ![R, K]⟩ ⟨2, ![K, N]⟩ ⟨2, ![R, N]⟩) (hD : D = DotDims.plain R K N)
    (x : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (hN : N ≠ 1) (p : Fin R) (n : Fin N) :
    addf (FloatOps.matmul D none x w (constant ⟨2, ![R, N]⟩ .f32 0x00000000#32)) (broadcastTo ⟨2, ![R, N]⟩ b hb) (ix2 p n)
      = dense (fun k n => w (ix2 k n)) (fun n => b (ix2 0 n)) (fun k => x (ix2 p k)) n := by
  subst hD
  rw [addf_apply, Cert.Lib.Rowwise.plain_matmul_zero_apply, biasRow_apply b hb hN]
  rfl

/-- The product alone: rows times weights into the zero word, at `(p, q)`. -/
theorem prod_apply (D : DotDims ⟨2, ![R, K]⟩ ⟨2, ![K, N]⟩ ⟨2, ![R, N]⟩) (hD : D = DotDims.plain R K N)
    (x : FVec Ideal ⟨2, ![R, K]⟩ φ₁) (w : FVec Ideal ⟨2, ![K, N]⟩ φ₂) (p : Fin R) (q : Fin N) :
    FloatOps.matmul D none x w (constant ⟨2, ![R, N]⟩ .f32 0x00000000#32) (ix2 p q) = ∑ k : Fin K, x (ix2 p k) * w (ix2 k q) := by
  subst hD
  exact Cert.Lib.Rowwise.plain_matmul_zero_apply none x w p q

/-- The kernel's layer followed by the rectifier and a change of format (the identity on extended reals), at `(p, n)`. -/
theorem reluLayer_apply {ψ : FTy} (D : DotDims ⟨2, ![R, K]⟩ ⟨2, ![K, N]⟩ ⟨2, ![R, N]⟩) (hD : D = DotDims.plain R K N)
    (x : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (hN : N ≠ 1) (hψ : ψ.bits < FTy.f32.bits) (p : Fin R) (n : Fin N) :
    (truncf ψ (maximumf (addf (FloatOps.matmul D none x w (constant ⟨2, ![R, N]⟩ .f32 0x00000000#32)) (broadcastTo ⟨2, ![R, N]⟩ b hb))
        (broadcast ⟨2, ![R, N]⟩ (Scalar.ofBits (F := Ideal) .f32 0x00000000#32))) hψ : FVec Ideal ⟨2, ![R, N]⟩ ψ) (ix2 p n)
      = relu (dense (fun k n => w (ix2 k n)) (fun n => b (ix2 0 n)) (fun k => x (ix2 p k)) n) := by
  rw [truncf_apply, maximumf_apply, layer_apply D hD x w b hb hN p n]
  rfl

/-- The host's product of `[R, K]` and `[K, N]`, at `(p, q)`: the same sum. -/
theorem plain_dotGeneral_apply (sched : HostSchedule) (a : FVec Ideal ⟨2, ![R, K]⟩ φ₁) (b : FVec Ideal ⟨2, ![K, N]⟩ φ₂)
    (p : Fin R) (q : Fin N) :
    FloatOps.dotGeneral (DotDims.plain R K N) none sched a b (ix2 p q) = ∑ k : Fin K, a (ix2 p k) * b (ix2 k q) := by
  rw [Ideal.dotGeneral_apply, ← Equiv.sum_comp (contrEquiv1 (DotDims.plain R K N) K rfl rfl).symm]
  refine Finset.sum_congr rfl fun k _ => ?_
  have hk := contrEquiv1_symm_val (DotDims.plain R K N) K rfl rfl k
  have el : (DotDims.plain R K N).lhsIdx (ix2 p q) ((contrEquiv1 (DotDims.plain R K N) K rfl rfl).symm k) = ix2 p k :=
    funext fun a => Fin.ext (by
      match a with
      | ⟨0, _⟩ => exact Cert.Lib.Rowwise.plain_lhs0 _ _
      | ⟨1, _⟩ => exact (Cert.Lib.Rowwise.plain_lhs1 _ _).trans hk)
  have er : (DotDims.plain R K N).rhsIdx (ix2 p q) ((contrEquiv1 (DotDims.plain R K N) K rfl rfl).symm k) = ix2 k q :=
    funext fun a => Fin.ext (by
      match a with
      | ⟨0, _⟩ => exact (Cert.Lib.Rowwise.plain_rhs0 _ _).trans hk
      | ⟨1, _⟩ => exact Cert.Lib.Rowwise.plain_rhs1 _ _)
  rw [el, er]

/-- The host's layer: the product of the rows with the weights, plus the bias vector laid out as a row and
    broadcast down the rows, at `(p, n)`. -/
theorem hostLayer_apply (D : DotDims ⟨2, ![R, K]⟩ ⟨2, ![K, N]⟩ ⟨2, ![R, N]⟩) (hD : D = DotDims.plain R K N)
    (x : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (hN : N ≠ 1) (p : Fin R) (n : Fin N) :
    addf (Host.dotGeneral D none x w) (broadcastInDim ⟨2, ![R, N]⟩ ![0, 1] h2 (broadcastInDim ⟨2, ![1, N]⟩ ![1] h1 b)) (ix2 p n)
      = dense (fun k n => w (ix2 k n)) (fun n => b (ix1 n)) (fun k => x (ix2 p k)) n := by
  subst hD
  rw [addf_apply]
  simp only [Host.dotGeneral]
  rw [plain_dotGeneral_apply]
  have e : broadcastInDim ⟨2, ![R, N]⟩ ![0, 1] h2 (broadcastInDim ⟨2, ![1, N]⟩ ![1] h1 b) (ix2 p n) = b (ix1 n) := by
    refine (broadcastInDim_apply _ h2 _ (ix2 p n) (ix2 0 n) fun a => ?_).trans ?_
    · match a with
      | ⟨0, _⟩ => exact (if_pos rfl).symm
      | ⟨1, _⟩ => exact (if_neg hN).symm
    · refine broadcastInDim_apply _ h1 b (ix2 0 n) (ix1 n) fun a => ?_
      match a with
      | ⟨0, _⟩ => exact (if_neg hN).symm
  rw [e]
  rfl

/-- The host's layer followed by the rectifier against a broadcast zero word, at `(p, n)`. -/
theorem hostReluLayer_apply (D : DotDims ⟨2, ![R, K]⟩ ⟨2, ![K, N]⟩ ⟨2, ![R, N]⟩) (hD : D = DotDims.plain R K N)
    (x : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![])
    (hN : N ≠ 1) (p : Fin R) (n : Fin N) :
    maximumf (addf (Host.dotGeneral D none x w) (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 p n)
      = relu (dense (fun k n => w (ix2 k n)) (fun n => b (ix1 n)) (fun k => x (ix2 p k)) n) := by
  rw [maximumf_apply, hostLayer_apply D hD x w b h1 h2 hN p n]
  rfl

end Layer

end Cert.EdgeMlp

end
-- ==== Proof.KernelBlock.lean ====
/-
  One grid point of the kernel, read at an element.

  The body loads a block of 8000 rows of each gathered descriptor array and the three weight matrices and bias
  rows whole, and stores one value: the 8000 × 256 block whose element `(p, q)` is the encoder
  (`Cert.EdgeMlp.mlp`) of row `p` of the two descriptor blocks at output channel `q`. The three matrix products
  are plain `[8000, K] × [K, N]` products into the zero word; the changes of format between the layers are the
  identity on the extended reals.
-/
import proofs.«114039_j10840497455585_1_alg».proof.Proof.Gen.KernelIdeal.Value
import proofs.«114039_j10840497455585_1_alg».proof.Proof.EdgeMlp

noncomputable section

namespace Cert.KernelIdeal.Block

open Cert.KernelIdeal Cert.KernelIdeal.Gen Cert.KernelIdeal.Value Idealize.ShloMosaic Idealize.ShloMosaic.ValueIdx Cert.EdgeMlp

theorem hz : (![0, 0] : Fin 2 → Nat) = fun _ => 0 := funext fun a => by fin_cases a <;> rfl

/-! ## The three products are plain -/

theorem dot1_plain : dot_S8000x11_S11x64_S8000x64_1_0_0_1_n_n = DotDims.plain 8000 11 64 :=
  Cert.Lib.Rowwise.eq_plain _ rfl rfl rfl rfl rfl rfl
theorem dot2_plain : dot_S8000x64_S64x128_S8000x128_1_0_0_1_n_n = DotDims.plain 8000 64 128 :=
  Cert.Lib.Rowwise.eq_plain _ rfl rfl rfl rfl rfl rfl
theorem dot3_plain : dot_S8000x128_S128x256_S8000x256_1_0_0_1_n_n = DotDims.plain 8000 128 256 :=
  Cert.Lib.Rowwise.eq_plain _ rfl rfl rfl rfl rfl rfl

/-! ## The last product's value at `(p, q)` -/

/-- The third product at `(p, q)`: the sum over the 128 hidden channels `k` of the rectified second layer of row `p`
    times the third weight matrix at `(k, q)`. -/
theorem product_apply (v0 v2 : Vec Ideal S8000x11 .f32) (v13 : Vec Ideal S11x64 .bf16) (v16 : Vec Ideal S1x64 .f32)
    (v23 : Vec Ideal S64x128 .bf16) (v26 : Vec Ideal S1x128 .f32) (v33 : Vec Ideal S128x256 .bf16) (p : Fin 8000) (q : Fin 256) :
    k0_pay2 v0 v2 v13 v16 v23 v26 v33 (ix2 p q)
      = ∑ k : Fin 128, relu (dense (fun k n => v23 (ix2 k n)) (fun n => v26 (ix2 0 n))
          (fun j => relu (dense (fun k n => v13 (ix2 k n)) (fun n => v16 (ix2 0 n))
            (feat (fun d => v0 (ix2 p d)) (fun d => v2 (ix2 p d))) j)) k) * v33 (ix2 k q) := by
  unfold k0_pay2
  refine (prod_apply _ dot3_plain _ _ p q).trans ?_
  refine Finset.sum_congr rfl fun k _ => ?_
  refine congrArg₂ (· * ·) ?_ (congrFun (shapeCast_self v33 _) (ix2 k q))
  refine (reluLayer_apply _ dot2_plain _ _ _ _ (by decide) _ p k).trans ?_
  refine congrArg relu (dense_congr (fun k n => congrFun (shapeCast_self v23 _) (ix2 k n))
    (fun n => congrFun (shapeCast_self v26 _) (ix2 0 n)) (fun j => ?_) k)
  refine (reluLayer_apply _ dot1_plain _ _ _ _ (by decide) _ p j).trans ?_
  refine congrArg relu (dense_congr (fun k n => congrFun (shapeCast_self v13 _) (ix2 k n))
    (fun n => congrFun (shapeCast_self v16 _) (ix2 0 n)) (fun d => ?_) j)
  refine (feature_apply (shapeCast S8000x11 v0 shapeCasts_S8000x11_S8000x11) (shapeCast S8000x11 v2 shapeCasts_S8000x11_S8000x11)
    slices_S8000x11_o0_0_S8000x6 slices_S8000x11_o0_6_S8000x5 concatenates_S8000x6_S8000x5_S8000x11_d1
    (log (F := Ideal) (s := S8000x5) (φ := .f32)) (divf (F := Ideal) (s := S8000x5) (φ := .f32))
    (fun _ _ => rfl) (fun _ _ _ => rfl) p d).trans ?_
  rw [shapeCast_self v0, shapeCast_self v2]

/-! ## The stored block -/

/-- What the body leaves in the output's staging buffer, at `(p, q)`: the encoder of row `p` of the two descriptor
    blocks, with the loaded weight matrices and bias rows, at channel `q`. -/
theorem block_apply (x0 x1 : Vec Ideal S8000x11 .f32) (x2 : Vec Ideal S11x64 .bf16) (x3 : Vec Ideal S1x64 .f32)
    (x4 : Vec Ideal S64x128 .bf16) (x5 : Vec Ideal S1x128 .f32) (x6 : Vec Ideal S128x256 .bf16) (x7 : Vec Ideal S1x256 .f32)
    (p : Fin 8000) (q : Fin 256) :
    out0_8 x0 x1 x2 x3 x4 x5 x6 x7 (ix2 p q)
      = mlp (fun k n => x2 (ix2 k n)) (fun n => x3 (ix2 0 n)) (fun k n => x4 (ix2 k n)) (fun n => x5 (ix2 0 n))
          (fun k n => x6 (ix2 k n)) (fun n => x7 (ix2 0 n)) (fun d => x0 (ix2 p d)) (fun d => x1 (ix2 p d)) q := by
  unfold out0_8
  refine (canon8_eq _ _ _ _ _ _ _ _ (ix2 p q)).trans ?_
  simp only [View.ld_unit_zero (S := S8000x11) hz, View.ld_unit_zero (S := S11x64) hz, View.ld_unit_zero (S := S1x64) hz,
    View.ld_unit_zero (S := S64x128) hz, View.ld_unit_zero (S := S1x128) hz, View.ld_unit_zero (S := S128x256) hz,
    View.ld_unit_zero (S := S1x256) hz]
  have e0 : ix8_0 (ix2 p q) = ix2 p q := funext fun a => Fin.ext (by match a with | ⟨0, _⟩ => rfl | ⟨1, _⟩ => rfl)
  have e1 : ix8_1 (ix2 p q) = ix2 0 q := funext fun a => Fin.ext (by match a with | ⟨0, _⟩ => rfl | ⟨1, _⟩ => rfl)
  show k0_pay2 x0 x1 x2 x3 x4 x5 x6 (ix8_0 (ix2 p q)) + x7 (ix8_1 (ix2 p q)) = _
  rw [e0, e1, product_apply]
  rfl

end Cert.KernelIdeal.Block

end
-- ==== Proof.KernelArray.lean ====
/-
  The kernel's result array.

  The grid has 100 points; point `t` reads rows `8000 t … 8000 t + 7999` of the two gathered descriptor arrays
  (`x_i`, gathered by the edges' targets, and `x_j`, by their sources), the three weight matrices and the three
  bias rows whole, and writes rows `8000 t … 8000 t + 7999` of the result. The weight matrices the region finds
  are the arguments after a change of format (the identity on extended reals), the bias rows the arguments laid
  out as one-row matrices. So the result array is `Cert.EdgeMlp.encode` of the two gathered arrays and the six
  arguments: row `e` is the encoder of rows `e` of `x_i` and `x_j`. The 100 row blocks cover the array.
-/
import proofs.«114039_j10840497455585_1_alg».proof.Proof.Gen.KernelIdeal.Value
import proofs.«114039_j10840497455585_1_alg».proof.Proof.KernelBlock
import Idealize.ShloMosaic.Lib.Pipeline.Value
import Idealize.ShloMosaic.Lib.StableHlo.Run

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Cert.EdgeMlp
open Idealize.ShloMosaic.Pipeline (Dat)

variable (m : (ℓ : Loc nD τ sig) → Buf (Elt Ideal) ℓ) (ρ : Dev nD → PrngReg)

/-! ## The index maps -/

/-- The printed index maps over the grid: the two descriptor windows and the output move one row block per
    point, the weights and biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row `p` of point `t`'s block is row `8000 t + p` of the edge list. -/
theorem row_lt (t : Fin cfg0.N) (p : Fin 8000) : 8000 * t.val + p.val < 800000 := by
  have ht : t.val < 100 := Nat.lt_of_lt_of_eq t.isLt N_0
  have := p.isLt
  omega

/-! ## The windows' blocks, read off the arrays the region finds -/

theorem xi_blk (c : Dev nD) (t : Fin cfg0.N) (p : Fin 8000) (d : Fin 11) :
    (iblk m c 0 t : Vec Ideal S8000x11 .f32) (ix2 p d)
      = (V m c main_v17 : S800000x11.Idx → EReal) (ix2 ⟨8000 * t.val + p.val, row_lt t p⟩ d) := by
  obtain ⟨e0, e1, -⟩ := idx_facts t
  unfold iblk
  rw [View.read_apply]
  show V m c main_v17 _ = V m c main_v17 _
  refine congrArg (V m c main_v17) (funext fun a => Fin.ext ?_)
  match a with
  | ⟨0, _⟩ => show win0_0.index t (0 : Fin 2) * 8000 + 1 * p.val = 8000 * t.val + p.val; rw [e0]; omega
  | ⟨1, _⟩ => show win0_0.index t (1 : Fin 2) * 11 + 1 * d.val = d.val; rw [e1]; omega

theorem xj_blk (c : Dev nD) (t : Fin cfg0.N) (p : Fin 8000) (d : Fin 11) :
    (iblk m c 1 t : Vec Ideal S8000x11 .f32) (ix2 p d)
      = (V m c main_v8 : S800000x11.Idx → EReal) (ix2 ⟨8000 * t.val + p.val, row_lt t p⟩ d) := by
  obtain ⟨-, -, e0, e1, -⟩ := idx_facts t
  unfold iblk
  rw [View.read_apply]
  show V m c main_v8 _ = V m c main_v8 _
  refine congrArg (V m c main_v8) (funext fun a => Fin.ext ?_)
  match a with
  | ⟨0, _⟩ => show win0_1.index t (0 : Fin 2) * 8000 + 1 * p.val = 8000 * t.val + p.val; rw [e0]; omega
  | ⟨1, _⟩ => show win0_1.index t (1 : Fin 2) * 11 + 1 * d.val = d.val; rw [e1]; omega

theorem w1_blk (c : Dev nD) (t : Fin cfg0.N) (k : Fin 11) (n : Fin 64) :
    (iblk m c 2 t : Vec Ideal S11x64 .bf16) (ix2 k n) = (V m c main_v18 : S11x64.Idx → EReal) (ix2 k n) := by
  obtain ⟨-, -, -, -, e0, e1, -⟩ := idx_facts t
  unfold iblk
  rw [View.read_apply]
  show V m c main_v18 _ = V m c main_v18 _
  refine congrArg (V m c main_v18) (funext fun a => Fin.ext ?_)
  match a with
  | ⟨0, _⟩ => show win0_2.index t (0 : Fin 2) * 11 + 1 * k.val = k.val; rw [e0]; omega
  | ⟨1, _⟩ => show win0_2.index t (1 : Fin 2) * 64 + 1 * n.val = n.val; rw [e1]; omega

theorem b1_blk (c : Dev nD) (t : Fin cfg0.N) (n : Fin 64) :
    (iblk m c 3 t : Vec Ideal S1x64 .f32) (ix2 0 n) = (V m c main_v21 : S1x64.Idx → EReal) (ix2 0 n) := by
  obtain ⟨-, -, -, -, -, -, e0, e1, -⟩ := idx_facts t
  unfold iblk
  rw [View.read_apply]
  show V m c main_v21 _ = V m c main_v21 _
  refine congrArg (V m c main_v21) (funext fun a => Fin.ext ?_)
  match a with
  | ⟨0, _⟩ => show win0_3.index t (0 : Fin 2) * 1 + 1 * 0 = 0; rw [e0]
  | ⟨1, _⟩ => show win0_3.index t (1 : Fin 2) * 64 + 1 * n.val = n.val; rw [e1]; omega

theorem w2_blk (c : Dev nD) (t : Fin cfg0.N) (k : Fin 64) (n : Fin 128) :
    (iblk m c 4 t : Vec Ideal S64x128 .bf16) (ix2 k n) = (V m c main_v19 : S64x128.Idx → EReal) (ix2 k n) := by
  obtain ⟨-, -, -, -, -, -, -, -, e0, e1, -⟩ := idx_facts t
  unfold iblk
  rw [View.read_apply]
  show V m c main_v19 _ = V m c main_v19 _
  refine congrArg (V m c main_v19) (funext fun a => Fin.ext ?_)
  match a with
  | ⟨0, _⟩ => show win0_4.index t (0 : Fin 2) * 64 + 1 * k.val = k.val; rw [e0]; omega
  | ⟨1, _⟩ => show win0_4.index t (1 : Fin 2) * 128 + 1 * n.val = n.val; rw [e1]; omega

theorem b2_blk (c : Dev nD) (t : Fin cfg0.N) (n : Fin 128) :
    (iblk m c 5 t : Vec Ideal S1x128 .f32) (ix2 0 n) = (V m c main_v22 : S1x128.Idx → EReal) (ix2 0 n) := by
  obtain ⟨-, -, -, -, -, -, -, -, -, -, e0, e1, -⟩ := idx_facts t
  unfold iblk
  rw [View.read_apply]
  show V m c main_v22 _ = V m c main_v22 _
  refine congrArg (V m c main_v22) (funext fun a => Fin.ext ?_)
  match a with
  | ⟨0, _⟩ => show win0_5.index t (0 : Fin 2) * 1 + 1 * 0 = 0; rw [e0]
  | ⟨1, _⟩ => show win0_5.index t (1 : Fin 2) * 128 + 1 * n.val = n.val; rw [e1]; omega

theorem w3_blk (c : Dev nD) (t : Fin cfg0.N) (k : Fin 128) (n : Fin 256) :
    (iblk m c 6 t : Vec Ideal S128x256 .bf16) (ix2 k n) = (V m c main_v20 : S128x256.Idx → EReal) (ix2 k n) := by
  obtain ⟨-, -, -, -, -, -, -, -, -, -, -, -, e0, e1, -⟩ := idx_facts t
  unfold iblk
  rw [View.read_apply]
  show V m c main_v20 _ = V m c main_v20 _
  refine congrArg (V m c main_v20) (funext fun a => Fin.ext ?_)
  match a with
  | ⟨0, _⟩ => show win0_6.index t (0 : Fin 2) * 128 + 1 * k.val = k.val; rw [e0]; omega
  | ⟨1, _⟩ => show win0_6.index t (1 : Fin 2) * 256 + 1 * n.val = n.val; rw [e1]; omega

theorem b3_blk (c : Dev nD) (t : Fin cfg0.N) (n : Fin 256) :
    (iblk m c 7 t : Vec Ideal S1x256 .f32) (ix2 0 n) = (V m c main_v23 : S1x256.Idx → EReal) (ix2 0 n) := by
  obtain ⟨-, -, -, -, -, -, -, -, -, -, -, -, -, -, e0, e1, -⟩ := idx_facts t
  unfold iblk
  rw [View.read_apply]
  show V m c main_v23 _ = V m c main_v23 _
  refine congrArg (V m c main_v23) (funext fun a => Fin.ext ?_)
  match a with
  | ⟨0, _⟩ => show win0_7.index t (0 : Fin 2) * 1 + 1 * 0 = 0; rw [e0]
  | ⟨1, _⟩ => show win0_7.index t (1 : Fin 2) * 256 + 1 * n.val = n.val; rw [e1]; omega

/-! ## The weights and biases the region finds, from the arguments -/

theorem w1_arr (c : Dev nD) (k : Fin 11) (n : Fin 64) :
    (V m c main_v18 : S11x64.Idx → EReal) (ix2 k n) = (m ((c : Thread nD τ).loc main_arg2) : S11x64.Idx → EReal) (ix2 k n) := by
  have e : @Eq (S11x64.Idx → EReal) (V m c main_v18)
      (truncf (F := Ideal) (s := S11x64) (φ := .f32) .bf16 (m ((c : Thread nD τ).loc main_arg2)) bitsLt_bf16_f32) := by
    dsimp only [Gen.V, Gen.hostOps0]; after_results
  rw [e]; rfl

theorem w2_arr (c : Dev nD) (k : Fin 64) (n : Fin 128) :
    (V m c main_v19 : S64x128.Idx → EReal) (ix2 k n) = (m ((c : Thread nD τ).loc main_arg4) : S64x128.Idx → EReal) (ix2 k n) := by
  have e : @Eq (S64x128.Idx → EReal) (V m c main_v19)
      (truncf (F := Ideal) (s := S64x128) (φ := .f32) .bf16 (m ((c : Thread nD τ).loc main_arg4)) bitsLt_bf16_f32) := by
    dsimp only [Gen.V, Gen.hostOps0]; after_results
  rw [e]; rfl

theorem w3_arr (c : Dev nD) (k : Fin 128) (n : Fin 256) :
    (V m c main_v20 : S128x256.Idx → EReal) (ix2 k n) = (m ((c : Thread nD τ).loc main_arg6) : S128x256.Idx → EReal) (ix2 k n) := by
  have e : @Eq (S128x256.Idx → EReal) (V m c main_v20)
      (truncf (F := Ideal) (s := S128x256) (φ := .f32) .bf16 (m ((c : Thread nD τ).loc main_arg6)) bitsLt_bf16_f32) := by
    dsimp only [Gen.V, Gen.hostOps0]; after_results
  rw [e]; rfl

theorem b1_arr (c : Dev nD) (n : Fin 64) :
    (V m c main_v21 : S1x64.Idx → EReal) (ix2 0 n) = (m ((c : Thread nD τ).loc main_arg3) : S64.Idx → EReal) (ix1 n) := by
  have e : (V m c main_v21 : S1x64.Idx → EReal) = shapeCast S1x64 (m ((c : Thread nD τ).loc main_arg3)) shapeCasts_S64_S1x64 := by
    dsimp only [Gen.V, Gen.hostOps0]; after_results; rfl
  rw [e]; exact rowCast_apply _ _ n

theorem b2_arr (c : Dev nD) (n : Fin 128) :
    (V m c main_v22 : S1x128.Idx → EReal) (ix2 0 n) = (m ((c : Thread nD τ).loc main_arg5) : S128.Idx → EReal) (ix1 n) := by
  have e : (V m c main_v22 : S1x128.Idx → EReal) = shapeCast S1x128 (m ((c : Thread nD τ).loc main_arg5)) shapeCasts_S128_S1x128 := by
    dsimp only [Gen.V, Gen.hostOps0]; after_results; rfl
  rw [e]; exact rowCast_apply _ _ n

theorem b3_arr (c : Dev nD) (n : Fin 256) :
    (V m c main_v23 : S1x256.Idx → EReal) (ix2 0 n) = (m ((c : Thread nD τ).loc main_arg7) : S256.Idx → EReal) (ix1 n) := by
  have e : (V m c main_v23 : S1x256.Idx → EReal) = shapeCast S1x256 (m ((c : Thread nD τ).loc main_arg7)) shapeCasts_S256_S1x256 := by
    dsimp only [Gen.V, Gen.hostOps0]; after_results; rfl
  rw [e]; exact rowCast_apply _ _ n

/-! ## The result array -/

/-- The result: the encoder of the two gathered arrays, as the region finds them, and the six arguments. -/
abbrev result (c : Dev nD) : S800000x256.Idx → EReal :=
  encode (E := 800000) (V m c main_v17 : S800000x11.Idx → EReal) (V m c main_v8 : S800000x11.Idx → EReal)
    (m ((c : Thread nD τ).loc main_arg2) : S11x64.Idx → EReal) (m ((c : Thread nD τ).loc main_arg3) : S64.Idx → EReal)
    (m ((c : Thread nD τ).loc main_arg4) : S64x128.Idx → EReal) (m ((c : Thread nD τ).loc main_arg5) : S128.Idx → EReal)
    (m ((c : Thread nD τ).loc main_arg6) : S128x256.Idx → EReal) (m ((c : Thread nD τ).loc main_arg7) : S256.Idx → EReal)

/-- Point `t` writes back rows `8000 t …` of the result. -/
theorem flushed_eq (c : Dev nD) (t : Fin cfg0.N) :
    (dats m 0 c).flushed 8 t = ((cfg0.win 8).blk t).view.read (Elt Ideal) (result m c) := by
  rw [Value.flushed8]
  have e8 := (idx_facts t).2.2.2.2.2.2.2.2.2.2.2.2.2.2.2.2
  funext y
  obtain ⟨p, q, rfl⟩ : ∃ (p : Fin 8000) (q : Fin 256), y = ix2 p q := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 p q)
    = result m c (((cfg0.win 8).blk t).view.emb (ix2 p q))
  have hemb : ((cfg0.win 8).blk t).view.emb (ix2 p q) = (ix2 ⟨8000 * t.val + p.val, row_lt t p⟩ q : S800000x256.Idx) :=
    funext fun a => Fin.ext (by
      match a with
      | ⟨0, _⟩ => show win0_8.index t (0 : Fin 2) * 8000 + 1 * p.val = 8000 * t.val + p.val; rw [e8.1]; omega
      | ⟨1, _⟩ => show win0_8.index t (1 : Fin 2) * 256 + 1 * q.val = q.val; rw [e8.2]; omega)
  rw [hemb]
  refine (block_apply _ _ _ _ _ _ _ _ p q).trans ?_
  refine (mlp_congr (fun k n => (w1_blk m c t k n).trans (w1_arr m c k n)) (fun n => (b1_blk m c t n).trans (b1_arr m c n))
    (fun k n => (w2_blk m c t k n).trans (w2_arr m c k n)) (fun n => (b2_blk m c t n).trans (b2_arr m c n))
    (fun k n => (w3_blk m c t k n).trans (w3_arr m c k n)) (fun n => (b3_blk m c t n).trans (b3_arr m c n))
    (fun d => xi_blk m c t p d) (fun d => xj_blk m c t p d) q).trans ?_
  exact (encode_apply _ _ _ _ _ _ _ _ ⟨8000 * t.val + p.val, row_lt t p⟩ q).symm

/-- An index of the result array is in point `t`'s block iff each coordinate is in the block's range. -/
theorem mem_blk (t : Fin cfg0.N) (i : S800000x256.Idx) :
    i ∈ ((cfg0.win 8).blk t).view.set ↔ ∀ a : Fin 2, win0_8.index t a * S8000x256.size a ≤ (i a).val ∧ (i a).val < win0_8.index t a * S8000x256.size a + S8000x256.size a := by
  show i ∈ ((View.whole main_v24).slice (win0_8.rect t)).set ↔ _
  rw [View.set_slice_whole, Rect.mem_set_unit]
  exact Iff.rfl

/-- Row `e` of the result lies in the block of point `e / 8000`. -/
theorem cover (i : S800000x256.Idx) : ∃ t : Fin cfg0.N, (cfg0.win 8).flush t = true ∧ i ∈ ((cfg0.win 8).blk t).view.set := by
  have hi0 : (i 0).val < 800000 := (i 0).isLt
  have hi1 : (i 1).val < 256 := (i 1).isLt
  obtain ⟨t, ht⟩ : ∃ t : Fin cfg0.N, t.val = (i 0).val / 8000 :=
    ⟨⟨(i 0).val / 8000, by rw [show cfg0.N = 100 from N_0]; omega⟩, rfl⟩
  have e8 := (idx_facts t).2.2.2.2.2.2.2.2.2.2.2.2.2.2.2.2
  refine ⟨t, flush0_8 t, ?_⟩
  rw [mem_blk]
  intro a
  match a with
  | ⟨0, _⟩ =>
    show win0_8.index t (0 : Fin 2) * 8000 ≤ (i 0).val ∧ (i 0).val < win0_8.index t (0 : Fin 2) * 8000 + 8000
    rw [e8.1, ht]; omega
  | ⟨1, _⟩ =>
    show win0_8.index t (1 : Fin 2) * 256 ≤ (i 1).val ∧ (i 1).val < win0_8.index t (1 : Fin 2) * 256 + 256
    rw [e8.2]; omega

/-- The result array after the run. -/
theorem final (c : Dev nD) : (dats m 0 c).arrAt 8 cfg0.N = result m c :=
  (dats m 0 c).arrAt_eq_of_cover 8 (result m c) (fun t _ => flushed_eq m c t) cover

/-- The run: the result array at `result`, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.KernelIdeal.Whole

end
-- ==== Proof.ReferenceRows.lean ====
/-
  The reference's result array.

  The reference gathers the two descriptor arrays on the host, joins the six differences and the five logarithms
  of quotients of their columns, and applies the three dense layers as whole-array products with the bias
  vectors broadcast down the 800000 rows, the rectifier between them a maximum against a broadcast zero. Read at
  `(e, o)`, row by row, that is `Cert.EdgeMlp.encode` of the two gathered arrays and the six arguments.
-/
import proofs.«114039_j10840497455585_1_alg».proof.Proof.Gen.ReferenceIdeal.Read
import proofs.«114039_j10840497455585_1_alg».proof.Proof.EdgeMlp

noncomputable section

namespace Cert.ReferenceIdeal.Rows

open Cert.ReferenceIdeal Cert.ReferenceIdeal.Read Idealize.ShloMosaic Idealize.ShloMosaic.ValueIdx Cert.EdgeMlp

/-! ## The three products are plain -/

theorem dot1_plain : dot_S800000x11_S11x64_S800000x64_1_0_0_1_n_n = DotDims.plain 800000 11 64 :=
  Cert.Lib.Rowwise.eq_plain _ rfl rfl rfl rfl rfl rfl
theorem dot2_plain : dot_S800000x64_S64x128_S800000x128_1_0_0_1_n_n = DotDims.plain 800000 64 128 :=
  Cert.Lib.Rowwise.eq_plain _ rfl rfl rfl rfl rfl rfl
theorem dot3_plain : dot_S800000x128_S128x256_S800000x256_1_0_0_1_n_n = DotDims.plain 800000 128 256 :=
  Cert.Lib.Rowwise.eq_plain _ rfl rfl rfl rfl rfl rfl

/-! ## The result, row by row -/

/-- The reference's last stage is the encoder of its two gathered arrays and the weights and biases. -/
theorem result_eq (x0 : (⟨S100000x11, .f32⟩ : BufTy).Contents (Elt Ideal)) (x1 : (⟨S2x800000, .i32⟩ : BufTy).Contents (Elt Ideal))
    (x2 : (⟨S11x64, .f32⟩ : BufTy).Contents (Elt Ideal)) (x3 : (⟨S64, .f32⟩ : BufTy).Contents (Elt Ideal))
    (x4 : (⟨S64x128, .f32⟩ : BufTy).Contents (Elt Ideal)) (x5 : (⟨S128, .f32⟩ : BufTy).Contents (Elt Ideal))
    (x6 : (⟨S128x256, .f32⟩ : BufTy).Contents (Elt Ideal)) (x7 : (⟨S256, .f32⟩ : BufTy).Contents (Elt Ideal)) :
    val_main_v39 (F := Ideal) x0 x1 x2 x3 x4 x5 x6 x7
      = encode (E := 800000) (val_main_v17 (F := Ideal) x0 x1) (val_main_v8 (F := Ideal) x0 x1) x2 x3 x4 x5 x6 x7 := by
  funext i
  obtain ⟨e, o, rfl⟩ : ∃ (e : Fin 800000) (o : Fin 256), i = ix2 e o := ⟨i 0, i 1, eq_ix2 i⟩
  rw [encode_apply]
  unfold val_main_v39 val_main_v38 val_main_v37 val_main_v36
  refine (hostLayer_apply _ dot3_plain _ _ _ _ _ (by decide) e o).trans ?_
  unfold mlp
  refine dense_congr (fun _ _ => rfl) (fun _ => rfl) (fun k => ?_) o
  unfold val_main_v35 val_main_v34 val_main_v33 val_main_v32 val_main_v31 val_main_call1_v0 val_main_call1_cst
  refine (hostReluLayer_apply _ dot2_plain _ _ _ _ _ _ (by decide) e k).trans ?_
  refine congrArg relu (dense_congr (fun _ _ => rfl) (fun _ => rfl) (fun j => ?_) k)
  unfold val_main_v30 val_main_v29 val_main_v28 val_main_v27 val_main_v26 val_main_call0_v0 val_main_call0_cst
  refine (hostReluLayer_apply _ dot1_plain _ _ _ _ _ _ (by decide) e j).trans ?_
  refine congrArg relu (dense_congr (fun _ _ => rfl) (fun _ => rfl) (fun d => ?_) j)
  unfold val_main_v25 val_main_v24 val_main_v23 val_main_v22 val_main_v21 val_main_v20 val_main_v19 val_main_v18
  exact feature_apply (val_main_v17 (F := Ideal) x0 x1) (val_main_v8 (F := Ideal) x0 x1)
    _ _ _
    (Host.log (F := Ideal) (s := S800000x5) (φ := .f32)) (Host.divf (F := Ideal) (s := S800000x5) (φ := .f32))
    (fun _ _ => rfl) (fun _ _ _ => rfl) e d

end Cert.ReferenceIdeal.Rows

end
-- ==== Proof.SameGather.lean ====
/-
  The two programs gather the same rows.

  Both programs turn each row of the edge list into row indices the same way — a negative index has the node
  count 100000 added, every index is then a one-entry index vector — and gather those rows of the descriptor
  array. The kernel does so on the host before its one region; what the region finds in the two gathered arrays
  is therefore, operation for operation, the term the reference computes from the same two arguments.
-/
import proofs.«114039_j10840497455585_1_alg».proof.Proof.Gen.KernelIdeal.Frame
import proofs.«114039_j10840497455585_1_alg».proof.Proof.Gen.ReferenceIdeal.Read
import Idealize.ShloMosaic.Lib.StableHlo.Run

noncomputable section

namespace Cert.Gathered

open Idealize.ShloMosaic Idealize.ShloMosaic.TcCoe Idealize.SL.Sem

variable (m : (ℓ : Loc Cert.KernelIdeal.nD Cert.KernelIdeal.τ Cert.KernelIdeal.sig) → Buf (Elt Ideal) ℓ)

/-- The descriptors gathered by the edges' targets (row 1 of the edge list): the array the kernel's first window
    stages is the reference's gather of the same arguments. -/
theorem targets (c : Dev Cert.KernelIdeal.nD) :
    @Eq (Cert.KernelIdeal.S800000x11.Idx → EReal) (Cert.KernelIdeal.Gen.V m c Cert.KernelIdeal.main_v17)
      (Cert.ReferenceIdeal.Read.val_main_v17 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))) := by
  dsimp only [Cert.KernelIdeal.Gen.V, Cert.KernelIdeal.Gen.hostOps0]
  after_results
  rfl

/-- The descriptors gathered by the edges' sources (row 0 of the edge list), likewise. -/
theorem sources (c : Dev Cert.KernelIdeal.nD) :
    @Eq (Cert.KernelIdeal.S800000x11.Idx → EReal) (Cert.KernelIdeal.Gen.V m c Cert.KernelIdeal.main_v8)
      (Cert.ReferenceIdeal.Read.val_main_v8 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))) := by
  dsimp only [Cert.KernelIdeal.Gen.V, Cert.KernelIdeal.Gen.hostOps0]
  after_results
  rfl

end Cert.Gathered

end
-- ==== Proof.lean ====
/-
  The certificate of an edge encoder: a message-passing layer's per-edge features and a three-layer perceptron.

  For each of 800000 edges the programs gather the descriptors `x_i`, `x_j` (11 channels) of the edge's target
  and source, form the feature — six differences `x_i - x_j` and five logarithms of quotients `log (x_i / x_j)` —
  and apply dense layers 11 → 64 → 128 → 256 with the rectifier after the first two. The kernel gathers on the
  host and runs the feature and the layers in one pipelined region over 100 blocks of 8000 edges, with the
  weights and the hidden activations narrowed to bf16 before each product; the reference does everything on the
  host in f32 over the whole edge list.

  On the extended reals a change of format is the identity, a matrix product into the zero word is the sum of
  products the host's `dot_general` is, the kernel's quotient and logarithm are the host's, and no rearrangement
  of a sum is needed: both results are, row by row, ONE function (`Cert.EdgeMlp.encode`) of the two gathered
  arrays and the six weight and bias arguments, and the two programs gather the same rows. So the algebraic
  claim needs no precondition beyond what the statement gives; finiteness is never used.

  Proof/EdgeMlp.lean states the function and reads the vector operations at an element; Proof/KernelBlock.lean
  reads one grid point's stored block; Proof/KernelArray.lean the kernel's result array (blocks, cover, run);
  Proof/ReferenceRows.lean the reference's last stage; Proof/SameGather.lean the two gathers.
-/
import proofs.«114039_j10840497455585_1_alg».proof.Defs
import proofs.«114039_j10840497455585_1_alg».proof.Proof.Gen.Kernel
import proofs.«114039_j10840497455585_1_alg».proof.Proof.Gen.Kernel.Skeleton
import proofs.«114039_j10840497455585_1_alg».proof.Proof.Gen.Kernel.Launch
import proofs.«114039_j10840497455585_1_alg».proof.Proof.Gen.Kernel.Points
import proofs.«114039_j10840497455585_1_alg».proof.Proof.Gen.Kernel.Frame
import proofs.«114039_j10840497455585_1_alg».proof.Proof.Gen.KernelIdeal
import proofs.«114039_j10840497455585_1_alg».proof.Proof.Gen.KernelIdeal.Skeleton
import proofs.«114039_j10840497455585_1_alg».proof.Proof.Gen.KernelIdeal.Launch
import proofs.«114039_j10840497455585_1_alg».proof.Proof.Gen.KernelIdeal.Points
import proofs.«114039_j10840497455585_1_alg».proof.Proof.Gen.KernelIdeal.Frame
import proofs.«114039_j10840497455585_1_alg».proof.Proof.Gen.ReferenceIdeal
import proofs.«114039_j10840497455585_1_alg».proof.Proof.Gen.Pre_finite_inputs
import proofs.«114039_j10840497455585_1_alg».proof.Proof.Gen.KernelIdeal.Value
import proofs.«114039_j10840497455585_1_alg».proof.Proof.Gen.ReferenceIdeal.Run
import proofs.«114039_j10840497455585_1_alg».proof.Proof.Gen.ReferenceIdeal.Read
import proofs.«114039_j10840497455585_1_alg».proof.Proof.KernelArray
import proofs.«114039_j10840497455585_1_alg».proof.Proof.ReferenceRows
import proofs.«114039_j10840497455585_1_alg».proof.Proof.SameGather
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories that agree on the arguments, the kernel's result array ends at the encoder of the two arrays it
    gathered and the weights and biases, the reference's at the encoder of the two arrays it gathers: the same
    arrays, so the same result. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v39_eq, Cert.ReferenceIdeal.Rows.result_eq, h0, h1, h2, h3, h4, h5, h6, h7,
    ← Cert.Gathered.targets m c, ← Cert.Gathered.sources m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
